-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096x1 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x1 .f32 := Host.absf main_arg2
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S8192x4096 : Shape := ⟨2, ![8192, 4096]⟩
abbrev S1x4096 : Shape := ⟨2, ![1, 4096]⟩
abbrev S512x1024 : Shape := ⟨2, ![512, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S4x2048x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .i32⟩
  | .local _ .vmem, ⟨3, _⟩ => ⟨S1024x1024, .i32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x4096_S4x2048x4096 : S8192x4096.ShapeCasts S4x2048x4096
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .i32 = 32 ∨ (Rect.block (s := S4096x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x4096.size a
  hwx0_4 : ∀ i : grid0.Coords, EltTy.bits .f32 = 32 ∨ (Rect.block (s := S8192x4096) S512x1024.size (cc0_transform_4 i) (hinb0_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096x1 : Shape := ⟨2, ![4096, 1]⟩
abbrev S4096 : Shape := ⟨1, ![4096]⟩
abbrev S1x1x4096 : Shape := ⟨3, ![1, 1, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x1, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4x2048x4096, .f32⟩
  | .hbm, ⟨8, _⟩ => ⟨S1x1x4096, .f32⟩
  | .hbm, ⟨9, _⟩ => ⟨S4x2048x4096, .f32⟩
  | .hbm, ⟨10, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibBlockSum.lean ====
/-
  Two facts about finite sums in a commutative monoid, used to compare an inner product accumulated block by
  block with the same inner product taken in one pass.  Neither needs the summands to be finite numbers:
  only that addition is associative and commutative (as it is on the extended reals).
-/
import Mathlib.Algebra.BigOperators.Fin
import Mathlib.Algebra.BigOperators.Intervals
import Mathlib.Logic.Equiv.Fin.Basic

namespace Cert.BlockSum

open Finset

/-- A sum over `n = nb * b` indices is the sum over the `nb` blocks of the sums over each block's `b` indices;
    index `kk` of block `kb` is `kb * b + kk`. -/
theorem sum_blocks {M : Type*} [AddCommMonoid M] {n : ℕ} (nb b : ℕ) (h : n = nb * b) (f : Fin n → M) :
    ∑ k : Fin n, f k
      = ∑ kb : Fin nb, ∑ kk : Fin b, f ⟨kb.val * b + kk.val, by
          subst h
          calc kb.val * b + kk.val < kb.val * b + b := Nat.add_lt_add_left kk.isLt _
            _ = (kb.val + 1) * b := (Nat.succ_mul _ _).symm
            _ ≤ nb * b := Nat.mul_le_mul_right _ kb.isLt⟩ := by
  subst h
  rw [← Fintype.sum_prod_type', ← (finProdFinEquiv (m := nb) (n := b)).sum_comp]
  refine Fintype.sum_congr _ _ fun p => ?_
  congr 1
  apply Fin.ext
  show p.2.val + b * p.1.val = p.1.val * b + p.2.val
  rw [Nat.mul_comm, Nat.add_comm]

/-- A running total that starts at the first term added to zero and then adds one term per step is, after step
    `k`, the sum of the terms `0 … k`. -/
theorem running_total {M : Type*} [AddCommMonoid M] (P a : ℕ → M) (h0 : a 0 = 0 + P 0)
    (hs : ∀ k, a (k + 1) = a k + P (k + 1)) (k : ℕ) : a k = ∑ i ∈ range (k + 1), P i := by
  induction k with
  | zero => rw [h0, zero_add, sum_range_one]
  | succ k ih => rw [hs, ih, sum_range_succ (fun i => P i) (k + 1)]

/-- The same total over all `nb` blocks, as a sum over `Fin nb`. -/
theorem running_total_last {M : Type*} [AddCommMonoid M] (nb : ℕ) (P a : ℕ → M) (h0 : a 0 = 0 + P 0)
    (hs : ∀ k, a (k + 1) = a k + P (k + 1)) : a nb = ∑ i : Fin (nb + 1), P i.val := by
  rw [running_total P a h0 hs nb, Fin.sum_univ_eq_sum_range (fun i => P i) (nb + 1)]

end Cert.BlockSum
-- ==== Proof.Spec.lean ====
/-
  The quantized linear layer as one function of its four arguments, and the arithmetic that joins a
  contraction accumulated in four column blocks of 1024 to the same contraction taken in one pass.

  With x : [4, 2048, 4096] (floats), w : [4096, 4096] (integers), s : [4096, 1] and b : [4096] (floats),
  the layer's value at (a, r, n) is
      (∑ d < 4096, x[a, r, d] · (w[n, d] · s[n, 0])) + b[n]
  over the extended reals, the integer w[n, d] read signed and exactly.  Only associativity and
  commutativity of + are used to regroup the sum, so no finiteness of the inputs is needed.
-/
import Idealize.ShloMosaic.PureOps.Ideal
import Idealize.ShloMosaic.Lib.ValueIdx
import proofs.«172781_j20160576487470_1_alg».proof.Proof.LibBlockSum

noncomputable section

open scoped BigOperators

namespace Cert.QLinear

open Idealize.ShloMosaic Idealize.ShloMosaic.ValueIdx

/-- The integer word read signed, as an extended real. -/
abbrev toR (b : BitVec 32) : EReal := ((b.toInt : ℝ) : EReal)

/-- One product of the contraction over the flattened rows: row `r` of the activations against output
    channel `n` of the dequantized weights, at contraction position `d`. -/
def term (X : (⟨2, ![8192, 4096]⟩ : Shape).Idx → EReal) (W : (⟨2, ![4096, 4096]⟩ : Shape).Idx → BitVec 32)
    (Sc : (⟨2, ![4096, 1]⟩ : Shape).Idx → EReal) (r : Fin 8192) (n : Fin 4096) (d : Fin 4096) : EReal :=
  X (ix2 r d) * (toR (W (ix2 n d)) * Sc (ix2 n (0 : Fin 1)))

/-- The same product at a natural contraction position (taken modulo 4096, so that no bound is carried). -/
def termN (X : (⟨2, ![8192, 4096]⟩ : Shape).Idx → EReal) (W : (⟨2, ![4096, 4096]⟩ : Shape).Idx → BitVec 32)
    (Sc : (⟨2, ![4096, 1]⟩ : Shape).Idx → EReal) (r : Fin 8192) (n : Fin 4096) (d : ℕ) : EReal :=
  term X W Sc r n ⟨d % 4096, Nat.mod_lt _ (by norm_num)⟩

/-- The contraction block `kb`: positions `kb · 1024 … kb · 1024 + 1023`. -/
def blockSum (X : (⟨2, ![8192, 4096]⟩ : Shape).Idx → EReal) (W : (⟨2, ![4096, 4096]⟩ : Shape).Idx → BitVec 32)
    (Sc : (⟨2, ![4096, 1]⟩ : Shape).Idx → EReal) (r : Fin 8192) (n : Fin 4096) (kb : ℕ) : EReal :=
  ∑ kk : Fin 1024, termN X W Sc r n (kb * 1024 + kk.val)

/-- The sum of the first `K` contraction blocks. -/
def partialSum (X : (⟨2, ![8192, 4096]⟩ : Shape).Idx → EReal) (W : (⟨2, ![4096, 4096]⟩ : Shape).Idx → BitVec 32)
    (Sc : (⟨2, ![4096, 1]⟩ : Shape).Idx → EReal) (r : Fin 8192) (n : Fin 4096) (K : ℕ) : EReal :=
  ∑ kb ∈ Finset.range K, blockSum X W Sc r n kb

theorem partialSum_succ (X : (⟨2, ![8192, 4096]⟩ : Shape).Idx → EReal) (W : (⟨2, ![4096, 4096]⟩ : Shape).Idx → BitVec 32)
    (Sc : (⟨2, ![4096, 1]⟩ : Shape).Idx → EReal) (r : Fin 8192) (n : Fin 4096) (K : ℕ) :
    partialSum X W Sc r n (K + 1) = partialSum X W Sc r n K + blockSum X W Sc r n K :=
  Finset.sum_range_succ _ _

theorem partialSum_one (X : (⟨2, ![8192, 4096]⟩ : Shape).Idx → EReal) (W : (⟨2, ![4096, 4096]⟩ : Shape).Idx → BitVec 32)
    (Sc : (⟨2, ![4096, 1]⟩ : Shape).Idx → EReal) (r : Fin 8192) (n : Fin 4096) :
    partialSum X W Sc r n 1 = blockSum X W Sc r n 0 :=
  Finset.sum_range_one _

/-- The four blocks together are the whole contraction. -/
theorem partialSum_four (X : (⟨2, ![8192, 4096]⟩ : Shape).Idx → EReal) (W : (⟨2, ![4096, 4096]⟩ : Shape).Idx → BitVec 32)
    (Sc : (⟨2, ![4096, 1]⟩ : Shape).Idx → EReal) (r : Fin 8192) (n : Fin 4096) :
    partialSum X W Sc r n 4 = ∑ d : Fin 4096, term X W Sc r n d := by
  rw [Cert.BlockSum.sum_blocks 4 1024 (by norm_num) (term X W Sc r n)]
  unfold partialSum
  rw [← Fin.sum_univ_eq_sum_range (fun kb => blockSum X W Sc r n kb) 4]
  refine Fintype.sum_congr _ _ fun kb => Fintype.sum_congr _ _ fun kk => ?_
  unfold termN
  congr 1
  apply Fin.ext
  show (kb.val * 1024 + kk.val) % 4096 = kb.val * 1024 + kk.val
  have h1 := kb.isLt
  have h2 := kk.isLt
  exact Nat.mod_eq_of_lt (by omega)

/-- The layer over the flattened rows: the whole contraction plus the bias of the output channel. -/
def out2d (X : (⟨2, ![8192, 4096]⟩ : Shape).Idx → EReal) (W : (⟨2, ![4096, 4096]⟩ : Shape).Idx → BitVec 32)
    (Sc : (⟨2, ![4096, 1]⟩ : Shape).Idx → EReal) (Bi : (⟨2, ![1, 4096]⟩ : Shape).Idx → EReal) :
    (⟨2, ![8192, 4096]⟩ : Shape).Idx → EReal :=
  fun j => (∑ d : Fin 4096, term X W Sc (j 0) (j 1) d) + Bi (ix2 (0 : Fin 1) (j 1))

/-- THE LAYER as one function of its four arguments, index by index. -/
def layer (x : (⟨3, ![4, 2048, 4096]⟩ : Shape).Idx → EReal) (w : (⟨2, ![4096, 4096]⟩ : Shape).Idx → BitVec 32)
    (sc : (⟨2, ![4096, 1]⟩ : Shape).Idx → EReal) (b : (⟨1, ![4096]⟩ : Shape).Idx → EReal) :
    (⟨3, ![4, 2048, 4096]⟩ : Shape).Idx → EReal :=
  fun i => (∑ d : Fin 4096, x (ix3 (i 0) (i 1) d) * (toR (w (ix2 (i 2) d)) * sc (ix2 (i 2) (0 : Fin 1)))) + b (ix1 (i 2))

end Cert.QLinear

end
-- ==== Proof.Ref.lean ====
/-
  The reference, read at an index, is the layer.

  The reference converts the integer weights to floats, multiplies each row by its channel's scale,
  contracts the activations' last axis against the weights' last axis, and adds the bias broadcast over
  the leading axes.  Read at the ideal instance at (a, r, n) this is
      (∑ d, x[a, r, d] · (w[n, d] · s[n, 0])) + b[n],
  which is the layer's definition term by term: the conversion of an integer is its exact signed value,
  and the two broadcasts read the scale at (n, 0) and the bias at n.
-/
import proofs.«172781_j20160576487470_1_alg».proof.Defs
import proofs.«172781_j20160576487470_1_alg».proof.Proof.Gen.ReferenceIdeal.Run
import proofs.«172781_j20160576487470_1_alg».proof.Proof.Gen.ReferenceIdeal.Read
import proofs.«172781_j20160576487470_1_alg».proof.Proof.Spec

noncomputable section

open scoped BigOperators

namespace Cert.QLinear.RefSide

open Cert.ReferenceIdeal Cert.ReferenceIdeal.Read
open Idealize.ShloMosaic Idealize.ShloMosaic.ValueIdx

/-- The reference's last stage is the layer of the four arguments. -/
theorem ref_eq_layer (x0 : (⟨S4x2048x4096, .f32⟩ : BufTy).Contents (Elt Ideal)) (x1 : (⟨S4096x4096, .i32⟩ : BufTy).Contents (Elt Ideal))
    (x2 : (⟨S4096x1, .f32⟩ : BufTy).Contents (Elt Ideal)) (x3 : (⟨S4096, .f32⟩ : BufTy).Contents (Elt Ideal)) :
    val_main_v6 (F := Ideal) x0 x1 x2 x3 = Cert.QLinear.layer x0 x1 x2 x3 := by
  funext i
  rw [val_main_v6_apply, val_main_v3_apply, val_main_v5_apply, val_main_v4_apply]
  unfold Cert.QLinear.layer
  show (∑ k : Fin 4096, x0 (lidx_main_v3 i k) * val_main_v2 (F := Ideal) x1 x2 (ridx_main_v3 i k)) + x3 (idx_main_v4 (idx_main_v5 i)) = _
  congr 1
  · refine Finset.sum_congr rfl fun k _ => ?_
    rw [val_main_v2_apply, val_main_v0_apply, val_main_v1_apply]
    have e1 : lidx_main_v3 i k = ix3 (i 0) (i 1) k := funext fun a => by
      match a with
      | ⟨0, _⟩ => rfl
      | ⟨1, _⟩ => rfl
      | ⟨2, _⟩ => rfl
    have e2 : ridx_main_v3 i k = ix2 (i 2) k := funext fun a => by
      match a with
      | ⟨0, _⟩ => rfl
      | ⟨1, _⟩ => rfl
    have e3 : idx_main_v1 (ix2 (i 2) k) = ix2 (i 2) (0 : Fin 1) := funext fun a => by
      match a with
      | ⟨0, _⟩ => rfl
      | ⟨1, _⟩ => rfl
    rw [e1, e2, e3]
    rfl
  · congr 1
    funext a
    match a with
    | ⟨0, _⟩ => rfl

end Cert.QLinear.RefSide

end
-- ==== Proof.Pieces.lean ====
/-
  What each control case of the kernel body leaves behind, as a value.

  The body has three cases by the position `k` along the contraction axis of the grid:
  `k = 0` resets the accumulator to zero and adds the first block product; `0 < k < 3` adds the block
  product to what the accumulator held; `k = 3` does the same and then stores the accumulator plus the
  bias row into the output block.  In every case the accumulator ends at the accumulation's stored value
  of the three input blocks and of what it held before (the zero block at `k = 0`); in the last case the
  output block is the final store's value of that accumulator and the bias block.
-/
import proofs.«172781_j20160576487470_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First contraction block: the accumulator is reset, read back, and ends at the accumulation over the zero block. -/
theorem scratch_A (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x1024 .f32) (x1 : Vec F S1024x1024 .i32) (x2 : Vec F S1024x1 .f32) (x3 : Vec F S1x1024 .f32) :
    sout0_A_0 c i arg3 harg3 arg4 harg4 arg5 harg5 arg6 harg6 arg7 harg7 arg8 harg8 hc0 hc1 x0 x1 x2 x3 = k0_pay2 x0 x1 x2 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x1024) hz, View.readCov_unit_zero (S := S512x1024) _ hz]
  simp only [View.readAt_eq_ld, harg3.read_unread, harg4.read_unread, harg5.read_unread, harg6.read_unread, harg8.read_unread, View.ld_unit_zero (S := S512x1024) hz, View.ld_unit_zero (S := S1024x1024) hz, View.ld_unit_zero (S := S1024x1) hz, View.ld_unit_zero (S := S1x1024) hz]

/-- A middle contraction block: the accumulator ends at the accumulation over what it held. -/
theorem scratch_B (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i)
    (x0 : Vec F S512x1024 .f32) (x1 : Vec F S1024x1024 .i32) (x2 : Vec F S1024x1 .f32) (x3 : Vec F S1x1024 .f32) (xs0 : Vec F S512x1024 .f32) :
    sout0_B_0 c i arg3 harg3 arg4 harg4 arg5 harg5 arg6 harg6 arg7 harg7 arg8 harg8 hc0 hc1 x0 x1 x2 x3 xs0 = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg6.read_unread, harg8.read_unread, View.ld_unit_zero (S := S512x1024) hz, View.ld_unit_zero (S := S1024x1024) hz, View.ld_unit_zero (S := S1024x1) hz, View.ld_unit_zero (S := S1x1024) hz]

/-- The last contraction block: the accumulator again ends at the accumulation over what it held … -/
theorem scratch_C (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x1024 .f32) (x1 : Vec F S1024x1024 .i32) (x2 : Vec F S1024x1 .f32) (x3 : Vec F S1x1024 .f32) (xs0 : Vec F S512x1024 .f32) :
    sout0_C_0 c i arg3 harg3 arg4 harg4 arg5 harg5 arg6 harg6 arg7 harg7 arg8 harg8 hc0 hc1 x0 x1 x2 x3 xs0 = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S512x1024) hz, View.ld_unit_zero (S := S1024x1024) hz, View.ld_unit_zero (S := S1024x1) hz, View.ld_unit_zero (S := S1x1024) hz]

/-- … and the output block is that accumulator, read back, plus the bias row. -/
theorem out_C (c : Dev nD) (i : grid0.Coords) (arg3 : Memref sig .tc .vmem S512x1024 .f32) (harg3 : arg3.IsWhole) (arg4 : Memref sig .tc .vmem S1024x1024 .i32) (harg4 : arg4.IsWhole) (arg5 : Memref sig .tc .vmem S1024x1 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x1024 .f32) (x1 : Vec F S1024x1024 .i32) (x2 : Vec F S1024x1 .f32) (x3 : Vec F S1x1024 .f32) (xs0 : Vec F S512x1024 .f32) :
    out0_C_4 c i arg3 harg3 arg4 harg4 arg5 harg5 arg6 harg6 arg7 harg7 arg8 harg8 hc0 hc1 x0 x1 x2 x3 xs0 = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readCov_unit_zero (S := S512x1024) _ hz, View.readAt_eq_ld, harg3.read_unread, harg4.read_unread, harg5.read_unread, harg6.read_unread, harg8.read_unread, View.ld_unit_zero (S := S512x1024) hz, View.ld_unit_zero (S := S1024x1024) hz, View.ld_unit_zero (S := S1024x1) hz, View.ld_unit_zero (S := S1x1024) hz]

end Cert.KernelIdeal.Pieces

end
-- ==== Proof.Payload.lean ====
/-
  The three values the kernel body stores, read at one index at the ideal instance.

  * the reset stores the zero block;
  * the accumulation stores  acc[p, q] + ∑ kk < 1024, x[p, kk] · (w[q, kk] · s[q, 0]) : the matrix product of
    the activation block with the dequantized weight block, contracted over the last axis of both, added
    to what the accumulator held (the changes of float format are the identity on extended reals, the
    integer weight is read signed and exactly, the scale column is broadcast along the contraction axis);
  * the final store adds the bias row, broadcast over the block's rows.
-/
import proofs.«172781_j20160576487470_1_alg».proof.Proof.Gen.KernelIdeal.Skeleton
import proofs.«172781_j20160576487470_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx
open Cert.QLinear (toR)

/-- A column `[a, 1]` broadcast to `[a, b]` reads, at `(p, c)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The block matrix product read at an index -/

theorem lhs_ax0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem lhs_ax1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem rhs_ax0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem rhs_ax1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product of a `[512, 1024]` block with a `[1024, 1024]` block contracted over the LAST axis of both,
    into the zero accumulator, at `(p, q)`: the sum over `kk` of `l[p, kk] · r[q, kk]`. -/
theorem mm_apply (l : FVec Ideal S512x1024 .bf16) (r : FVec Ideal S1024x1024 .bf16) (p : Fin 512) (q : Fin 1024) :
    matmul dot_S512x1024_S1024x1024_S512x1024_1_1_0_0_n_n none l r (constant S512x1024 .f32 0x00000000#32) (ix2 p q)
      = ∑ kk : Fin 1024, l (ix2 p kk) * r (ix2 q kk) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p q) ((contrEquiv1 dot_S512x1024_S1024x1024_S512x1024_1_1_0_0_n_n 1024 rfl rfl).symm k) = ix2 p k := funext fun a => Fin.ext (by
    match a with
    | ⟨0, _⟩ => exact lhs_ax0 _ _
    | ⟨1, _⟩ => exact (lhs_ax1 _ _).trans hk)
  have er : dot_S512x1024_S1024x1024_S512x1024_1_1_0_0_n_n.rhsIdx (ix2 p q) ((contrEquiv1 dot_S512x1024_S1024x1024_S512x1024_1_1_0_0_n_n 1024 rfl rfl).symm k) = ix2 q k := funext fun a => Fin.ext (by
    match a with
    | ⟨0, _⟩ => exact rhs_ax0 _ _
    | ⟨1, _⟩ => exact (rhs_ax1 _ _).trans hk)
  rw [el, er]

/-! ## The stored values -/

/-- The reset's block is zero everywhere. -/
theorem pay1_apply (j : S512x1024.Idx) : k0_pay1 (F := Ideal) j = 0 := by
  unfold k0_pay1
  rw [shapeCast_self]
  exact Ideal.ofBits_zero_f32

/-- The accumulation's block at `(p, q)`. -/
theorem pay2_apply (x0 : Vec Ideal S512x1024 .f32) (x1 : Vec Ideal S1024x1024 .i32) (x2 : Vec Ideal S1024x1 .f32)
    (acc : Vec Ideal S512x1024 .f32) (p : Fin 512) (q : Fin 1024) :
    k0_pay2 (F := Ideal) x0 x1 x2 acc (ix2 p q)
      = acc (ix2 p q) + ∑ kk : Fin 1024, x0 (ix2 p kk) * (toR (x1 (ix2 q kk)) * x2 (ix2 q (0 : Fin 1))) := by
  unfold k0_pay2
  simp only [shapeCast_self]
  rw [addf_apply, mm_apply]
  congr 1
  refine Finset.sum_congr rfl fun kk _ => ?_
  rw [truncf_apply, mulf_apply, sitofp_apply, broadcastTo_a1_ab_apply, truncf_apply]
  rfl

/-- The final store's block at `(p, q)`: the accumulator plus the bias of column `q`. -/
theorem pay3_apply (v21 : Vec Ideal S512x1024 .f32) (v22 : Vec Ideal S1x1024 .f32) (p : Fin 512) (q : Fin 1024) :
    k0_pay3 (F := Ideal) v21 v22 (ix2 p q) = v21 (ix2 p q) + v22 (ix2 (0 : Fin 1) q) := by
  unfold k0_pay3
  simp only [shapeCast_self]
  rw [addf_apply, broadcastTo_1b_ab_apply]

end Cert.KernelIdeal.Payload

end
-- ==== Proof.Acc.lean ====
/-
  The accumulator after every grid point, and the output block at the points that write it back.

  The grid is 16 × 4 × 4 in row-major order, so point `t` works on row block `t / 16`, output-channel block
  `t / 4 % 4` and contraction block `t % 4`.  Reading each input block where its window puts it in its
  array, the block product at point `t`, at `(p, q)` of the block, is the contraction block `t % 4` of row
  `512 · (t / 16) + p` against channel `1024 · (t / 4 % 4) + q`.  By induction on the point the accumulator
  after point `t` holds the sum of the contraction blocks `0 … t % 4` of that row and channel; at
  `t % 4 = 3` that is the whole contraction, and the output block is it plus the channel's bias.
-/
import proofs.«172781_j20160576487470_1_alg».proof.Proof.Pieces
import proofs.«172781_j20160576487470_1_alg».proof.Proof.Payload

noncomputable section

open scoped BigOperators

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pieces Cert.KernelIdeal.Payload
open Idealize.ShloMosaic.ValueIdx
open Cert.QLinear

variable (m : (ℓ : Loc nD τ sig) → Buf (Elt Ideal) ℓ)

/-! ## Where each window's block sits in its array -/

theorem idxX : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem idxW : ∀ t : Fin cfg0.N, win0_1.index t (0 : Fin 2) = t.val / 4 % 4 ∧ win0_1.index t (1 : Fin 2) = t.val % 4 :=
  (by decide +kernel : ∀ t : Fin grid0.N, win0_1.index t (0 : Fin 2) = t.val / 4 % 4 ∧ win0_1.index t (1 : Fin 2) = t.val % 4)
theorem idxS : ∀ t : Fin cfg0.N, win0_2.index t (0 : Fin 2) = t.val / 4 % 4 ∧ win0_2.index t (1 : Fin 2) = 0 :=
  (by decide +kernel : ∀ t : Fin grid0.N, win0_2.index t (0 : Fin 2) = t.val / 4 % 4 ∧ win0_2.index t (1 : Fin 2) = 0)
theorem idxB : ∀ t : Fin cfg0.N, win0_3.index t (0 : Fin 2) = 0 ∧ win0_3.index t (1 : Fin 2) = t.val / 4 % 4 :=
  (by decide +kernel : ∀ t : Fin grid0.N, win0_3.index t (0 : Fin 2) = 0 ∧ win0_3.index t (1 : Fin 2) = t.val / 4 % 4)
theorem idxO : ∀ t : Fin cfg0.N, win0_4.index t (0 : Fin 2) = t.val / 16 ∧ win0_4.index t (1 : Fin 2) = t.val / 4 % 4 :=
  (by decide +kernel : ∀ t : Fin grid0.N, win0_4.index t (0 : Fin 2) = t.val / 16 ∧ win0_4.index t (1 : Fin 2) = t.val / 4 % 4)

theorem lt256 (t : Fin cfg0.N) : t.val < 256 := lt_of_lt_of_eq t.isLt (show cfg0.N = 256 from N_0)

/-- The input blocks at a point and the arrays as the kernel finds them, at their literal types. -/
abbrev xblk (c : Dev nD) (t : Fin cfg0.N) : Vec Ideal S512x1024 .f32 := iblk m c 0 t
abbrev wblk (c : Dev nD) (t : Fin cfg0.N) : Vec Ideal S1024x1024 .i32 := iblk m c 1 t
abbrev sblk (c : Dev nD) (t : Fin cfg0.N) : Vec Ideal S1024x1 .f32 := iblk m c 2 t
abbrev bblk (c : Dev nD) (t : Fin cfg0.N) : Vec Ideal S1x1024 .f32 := iblk m c 3 t
abbrev xarr (c : Dev nD) : Vec Ideal S8192x4096 .f32 := V m c main_v0
abbrev warr (c : Dev nD) : Vec Ideal S4096x4096 .i32 := V m c main_arg1
abbrev sarr (c : Dev nD) : Vec Ideal S4096x1 .f32 := V m c main_arg2
abbrev barr (c : Dev nD) : Vec Ideal S1x4096 .f32 := V m c main_v1

theorem xblk_at (c : Dev nD) (t : Fin cfg0.N) (p : Fin 512) (kk : Fin 1024) (r : Fin 8192) (d : Fin 4096)
    (hr : r.val = t.val / 16 * 512 + p.val) (hd : d.val = t.val % 4 * 1024 + kk.val) :
    xblk m c t (ix2 p kk) = xarr m c (ix2 r d) := by
  show ((cfg0.win 0).blk t).view.read (Elt Ideal) (V m c (Pipeline.arrRef spec0 0)) (ix2 p kk) = _
  rw [View.read_apply]
  show V m c main_v0 _ = V m c main_v0 _
  congr 1
  funext a
  apply Fin.ext
  match a with
  | ⟨0, _⟩ => show win0_0.index t 0 * 512 + 1 * p.val = r.val; rw [(idxX t).1, hr]; omega
  | ⟨1, _⟩ => show win0_0.index t 1 * 1024 + 1 * kk.val = d.val; rw [(idxX t).2, hd]; omega

theorem wblk_at (c : Dev nD) (t : Fin cfg0.N) (q : Fin 1024) (kk : Fin 1024) (o : Fin 4096) (d : Fin 4096)
    (ho : o.val = t.val / 4 % 4 * 1024 + q.val) (hd : d.val = t.val % 4 * 1024 + kk.val) :
    wblk m c t (ix2 q kk) = warr m c (ix2 o d) := by
  show ((cfg0.win 1).blk t).view.read (Elt Ideal) (V m c (Pipeline.arrRef spec0 1)) (ix2 q kk) = _
  rw [View.read_apply]
  show V m c main_arg1 _ = V m c main_arg1 _
  congr 1
  funext a
  apply Fin.ext
  match a with
  | ⟨0, _⟩ => show win0_1.index t 0 * 1024 + 1 * q.val = o.val; rw [(idxW t).1, ho]; omega
  | ⟨1, _⟩ => show win0_1.index t 1 * 1024 + 1 * kk.val = d.val; rw [(idxW t).2, hd]; omega

theorem sblk_at (c : Dev nD) (t : Fin cfg0.N) (q : Fin 1024) (o : Fin 4096)
    (ho : o.val = t.val / 4 % 4 * 1024 + q.val) :
    sblk m c t (ix2 q (0 : Fin 1)) = sarr m c (ix2 o (0 : Fin 1)) := by
  show ((cfg0.win 2).blk t).view.read (Elt Ideal) (V m c (Pipeline.arrRef spec0 2)) (ix2 q (0 : Fin 1)) = _
  rw [View.read_apply]
  show V m c main_arg2 _ = V m c main_arg2 _
  congr 1
  funext a
  apply Fin.ext
  match a with
  | ⟨0, _⟩ => show win0_2.index t 0 * 1024 + 1 * q.val = o.val; rw [(idxS t).1, ho]; omega
  | ⟨1, _⟩ => show win0_2.index t 1 * 1 + 1 * 0 = 0; rw [(idxS t).2]

theorem bblk_at (c : Dev nD) (t : Fin cfg0.N) (q : Fin 1024) (o : Fin 4096)
    (ho : o.val = t.val / 4 % 4 * 1024 + q.val) :
    bblk m c t (ix2 (0 : Fin 1) q) = barr m c (ix2 (0 : Fin 1) o) := by
  show ((cfg0.win 3).blk t).view.read (Elt Ideal) (V m c (Pipeline.arrRef spec0 3)) (ix2 (0 : Fin 1) q) = _
  rw [View.read_apply]
  show V m c main_v1 _ = V m c main_v1 _
  congr 1
  funext a
  apply Fin.ext
  match a with
  | ⟨0, _⟩ => show win0_3.index t 0 * 1 + 1 * 0 = 0; rw [(idxB t).1]
  | ⟨1, _⟩ => show win0_3.index t 1 * 1024 + 1 * q.val = o.val; rw [(idxB t).2, ho]; omega

/-- The block product at point `t` is contraction block `t % 4` of the row and channel under `(p, q)`. -/
theorem blockProd_eq (c : Dev nD) (t : Fin cfg0.N) (p : Fin 512) (q : Fin 1024) (r : Fin 8192) (o : Fin 4096)
    (hr : r.val = t.val / 16 * 512 + p.val) (ho : o.val = t.val / 4 % 4 * 1024 + q.val) :
    ∑ kk : Fin 1024, xblk m c t (ix2 p kk) * (toR (wblk m c t (ix2 q kk)) * sblk m c t (ix2 q (0 : Fin 1)))
      = blockSum (xarr m c) (warr m c) (sarr m c) r o (t.val % 4) := by
  unfold blockSum termN term
  have hN := lt256 t
  refine Finset.sum_congr rfl fun kk _ => ?_
  have hk := kk.isLt
  have hd : (⟨(t.val % 4 * 1024 + kk.val) % 4096, Nat.mod_lt _ (by norm_num)⟩ : Fin 4096).val = t.val % 4 * 1024 + kk.val := by
    show (t.val % 4 * 1024 + kk.val) % 4096 = _
    omega
  rw [xblk_at m c t p kk r _ hr hd, wblk_at m c t q kk o _ ho hd, sblk_at m c t q o ho]

/-! ## The accumulator, point by point -/

/-- At the first contraction block the accumulator ends at the accumulation over the zero block. -/
theorem scr_first (c : Dev nD) (t : Fin cfg0.N) (h0 : t.val % 4 = 0) :
    (outsAt0 m c t.val t.isLt).2 = k0_pay2 (xblk m c t) (wblk m c t) (sblk m c t) (k0_pay1 (F := Ideal)) := by
  have h1 : ¬t.val % 4 = 3 := by omega
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At a later contraction block it ends at the accumulation over what the point before left. -/
theorem scr_next (c : Dev nD) (t : Fin cfg0.N) (h0 : ¬t.val % 4 = 0) :
    (outsAt0 m c t.val t.isLt).2 = k0_pay2 (xblk m c t) (wblk m c t) (sblk m c t) (outsAt0 m c (t.val - 1) (Nat.lt_of_le_of_lt (Nat.sub_le _ _) t.isLt)).2 := by
  by_cases h1 : t.val % 4 = 3
  · rw [outsAt0_C m c t h0 h1]
    dsimp only
    exact scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact scratch_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At the last contraction block the output block is the accumulator it leaves plus the bias row. -/
theorem out_last (c : Dev nD) (t : Fin cfg0.N) (h1 : t.val % 4 = 3) :
    (outsAt0 m c t.val t.isLt).1 = k0_pay3 (outsAt0 m c t.val t.isLt).2 (bblk m c t) := by
  have h0 : ¬t.val % 4 = 0 := by omega
  rw [outsAt0_C m c t h0 h1]
  dsimp only
  exact (out_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (congrArg (fun a => k0_pay3 a (iblk m c 3 t))
      (scratch_C (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm)

/-- THE ACCUMULATOR after point `n`, at `(p, q)`: the contraction blocks `0 … n % 4` of the row and channel
    under `(p, q)`. -/
theorem acc_eq (c : Dev nD) (n : ℕ) : ∀ (h : n < cfg0.N) (p : Fin 512) (q : Fin 1024) (r : Fin 8192) (o : Fin 4096),
    r.val = n / 16 * 512 + p.val → o.val = n / 4 % 4 * 1024 + q.val →
    (outsAt0 m c n h).2 (ix2 p q) = partialSum (xarr m c) (warr m c) (sarr m c) r o (n % 4 + 1) := by
  induction n with
  | zero =>
    intro h p q r o hr ho
    refine (congrFun (scr_first m c ⟨0, h⟩ rfl) (ix2 p q)).trans ?_
    rw [pay2_apply, pay1_apply, zero_add, blockProd_eq m c ⟨0, h⟩ p q r o hr ho]
    exact (partialSum_one _ _ _ _ _).symm
  | succ n ih =>
    intro h p q r o hr ho
    by_cases h0 : (n + 1) % 4 = 0
    · refine (congrFun (scr_first m c ⟨n + 1, h⟩ h0) (ix2 p q)).trans ?_
      rw [pay2_apply, pay1_apply, zero_add, blockProd_eq m c ⟨n + 1, h⟩ p q r o hr ho]
      show blockSum _ _ _ r o ((n + 1) % 4) = partialSum _ _ _ r o ((n + 1) % 4 + 1)
      rw [h0]
      exact (partialSum_one _ _ _ _ _).symm
    · refine (congrFun (scr_next m c ⟨n + 1, h⟩ h0) (ix2 p q)).trans ?_
      rw [pay2_apply, blockProd_eq m c ⟨n + 1, h⟩ p q r o hr ho]
      have hp := ih (Nat.lt_of_succ_lt h) p q r o (by omega) (by omega)
      show (outsAt0 m c n _).2 (ix2 p q) + blockSum _ _ _ r o ((n + 1) % 4) = partialSum _ _ _ r o ((n + 1) % 4 + 1)
      rw [hp, show n % 4 + 1 = (n + 1) % 4 from by omega]
      exact (partialSum_succ _ _ _ _ _ _).symm

/-- THE OUTPUT BLOCK at a point that writes back, at `(p, q)`: the layer over the flattened rows at the row and
    channel under `(p, q)`. -/
theorem out_eq (c : Dev nD) (t : Fin cfg0.N) (h1 : t.val % 4 = 3) (p : Fin 512) (q : Fin 1024) (r : Fin 8192) (o : Fin 4096)
    (hr : r.val = t.val / 16 * 512 + p.val) (ho : o.val = t.val / 4 % 4 * 1024 + q.val) :
    (outsAt0 m c t.val t.isLt).1 (ix2 p q) = out2d (xarr m c) (warr m c) (sarr m c) (barr m c) (ix2 r o) := by
  refine (congrFun (out_last m c t h1) (ix2 p q)).trans ?_
  rw [pay3_apply, acc_eq m c t.val t.isLt p q r o hr ho, bblk_at m c t q o ho, h1, partialSum_four]
  rfl

end Cert.KernelIdeal.Acc

end
-- ==== Proof.Result.lean ====
/-
  From blocks to the array, through the reshapes around the kernel, to the layer.

  Every point with `t % 4 = 3` writes its output block back, and block `(t / 16, t / 4 % 4)` of the
  `[8192, 4096]` result holds the layer over the flattened rows there; these 64 blocks tile the array, so
  after the run the array is that function everywhere.  Before the kernel the activations `[4, 2048, 4096]`
  are reshaped to `[8192, 4096]` (row `2048 · a + r`) and the bias `[4096]` to `[1, 4096]`; after it the result
  is reshaped back.  Reading the three reshapes at an index turns the flattened layer into the layer.
-/
import proofs.«172781_j20160576487470_1_alg».proof.Proof.Acc
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Acc
open Idealize.ShloMosaic.ValueIdx
open Cert.QLinear

variable (m : (ℓ : Loc nD τ sig) → Buf (Elt Ideal) ℓ) (ρ : Dev nD → PrngReg)

/-- The layer over the flattened rows, of the arrays as the kernel finds them: what the result array ends holding. -/
abbrev flat (c : Dev nD) : Buf (Elt Ideal) ((c : Thread nD τ).loc main_v2) :=
  out2d (xarr m c) (warr m c) (sarr m c) (barr m c)

/-- The output block a write-back point leaves, at an index of the block, is the flattened layer at the index of the
    array the block puts it at. -/
theorem block_at (c : Dev nD) (t : Fin cfg0.N) (h1 : t.val % 4 = 3) (j : S512x1024.Idx) :
    (outsAt0 m c t.val t.isLt).1 j = flat m c (((cfg0.win 4).blk t).view.emb j) := by
  obtain ⟨p, q, rfl⟩ : ∃ (p : Fin 512) (q : Fin 1024), j = ix2 p q := ⟨j 0, j 1, eq_ix2 j⟩
  have hN := lt256 t
  have hp := p.isLt
  have hq := q.isLt
  rw [out_eq m c t h1 p q ⟨t.val / 16 * 512 + p.val, by omega⟩ ⟨t.val / 4 % 4 * 1024 + q.val, by omega⟩ rfl rfl]
  show out2d _ _ _ _ _ = out2d _ _ _ _ _
  congr 1
  funext a
  apply Fin.ext
  match a with
  | ⟨0, _⟩ => show t.val / 16 * 512 + p.val = win0_4.index t 0 * 512 + 1 * p.val; rw [(idxO t).1]; omega
  | ⟨1, _⟩ => show t.val / 4 % 4 * 1024 + q.val = win0_4.index t 1 * 1024 + 1 * q.val; rw [(idxO t).2]; omega

/-- What a write-back point writes is its block of the flattened layer. -/
theorem flushed_eq (c : Dev nD) (t : Fin cfg0.N) (hf : (cfg0.win 4).flush t = true) :
    (dats m 0 c).flushed 4 t = ((cfg0.win 4).blk t).view.read (Elt Ideal) (flat m c) := by
  have h1 : t.val % 4 = 3 := (flush0_4 t).mp hf
  show (cfg0.win 4).cut (grid0.coords t) ((dats m 0 c).after 4 t) = _
  rw [after0_4]
  funext j
  rw [View.read_apply]
  exact block_at m c t h1 j

/-- An index of the result array is in point `t`'s block iff each coordinate is in the block's range. -/
theorem mem_blk (t : Fin cfg0.N) (i : S8192x4096.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v2).slice (win0_4.rect t)).set ↔ _
  rw [View.set_slice_whole, Rect.mem_set_unit]
  exact Iff.rfl

/-- Every index of the result array is in the block of a write-back point: row block `i₀ / 512`, channel block
    `i₁ / 1024`, last contraction block. -/
theorem cover (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 256 := N_0
  obtain ⟨t, ht⟩ : ∃ t : Fin cfg0.N, t.val = (i 0).val / 512 * 16 + (i 1).val / 1024 * 4 + 3 :=
    ⟨⟨(i 0).val / 512 * 16 + (i 1).val / 1024 * 4 + 3, by rw [hN]; omega⟩, rfl⟩
  refine ⟨t, (flush0_4 t).mpr (by omega), ?_⟩
  rw [mem_blk]
  obtain ⟨e0, e1⟩ := idxO t
  intro a
  match a with
  | ⟨0, _⟩ => show win0_4.index t (0 : Fin 2) * 512 ≤ (i 0).val ∧ (i 0).val < win0_4.index t (0 : Fin 2) * 512 + 512; rw [e0]; omega
  | ⟨1, _⟩ => show win0_4.index t (1 : Fin 2) * 1024 ≤ (i 1).val ∧ (i 1).val < win0_4.index t (1 : Fin 2) * 1024 + 1024; rw [e1]; omega

/-- So the result array ends holding the flattened layer. -/
theorem final_o (c : Dev nD) : (dats m 0 c).arrAt 4 cfg0.N = flat m c :=
  (dats m 0 c).arrAt_eq_of_cover 4 (flat m c) (flushed_eq m c) cover

/-! ## The reshapes before the kernel -/

theorem xarr_eq (c : Dev nD) :
    xarr m c = shapeCast S8192x4096 (m ((c : Thread nD τ).loc main_arg0)) shapeCasts_S4x2048x4096_S8192x4096 := by
  show StableHlo.after hostOps0 (fun b => m (c, b)) (Proc.devRef .tc main_v0) = _
  after_results
  rfl

theorem barr_eq (c : Dev nD) :
    barr m c = shapeCast S1x4096 (m ((c : Thread nD τ).loc main_arg3)) shapeCasts_S4096_S1x4096 := by
  show StableHlo.after hostOps0 (fun b => m (c, b)) (Proc.devRef .tc main_v1) = _
  after_results
  rfl

/-- Row `2048 · a + r` of the flattened activations is row `(a, r)` of the argument. -/
theorem xarr_at (c : Dev nD) (a : Fin 4) (r : Fin 2048) (d : Fin 4096) (R : Fin 8192) (hR : R.val = a.val * 2048 + r.val) :
    xarr m c (ix2 R d) = m ((c : Thread nD τ).loc main_arg0) (ix3 a r d) := by
  rw [xarr_eq]
  exact shapeCast_apply _ _ (ix2 R d) (ix3 a r d) (by
    rw [Shape.rowMajor_val_three, Shape.rowMajor_val_two]
    show (a.val * 2048 + r.val) * 4096 + d.val = R.val * 4096 + d.val
    rw [hR])

/-- The bias as a row reads the argument at the channel. -/
theorem barr_at (c : Dev nD) (n : Fin 4096) :
    barr m c (ix2 (0 : Fin 1) n) = m ((c : Thread nD τ).loc main_arg3) (ix1 n) := by
  rw [barr_eq]
  exact shapeCast_a_1a_apply _ _ 0 n

/-! ## The reshape after the kernel -/

theorem tail_eq (c : Dev nD) :
    Pipeline.afterTail₀ cfgs (dats m) 0 (V0 m) [hostOps1] c main_v3
      = shapeCast S4x2048x4096 (flat m c) shapeCasts_S8192x4096_S4x2048x4096 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2) = flat m c :=
    (Pipeline.withArrays_arr spec0 launch0.win.arr_inj c _ _ 4).trans (final_o m c)
  exact funext fun i => congrArg (fun A => shapeCast S4x2048x4096 A shapeCasts_S8192x4096_S4x2048x4096 i) e

/-- The four arguments as launched, at their literal types. -/
abbrev arg0 (c : Dev nD) : Vec Ideal S4x2048x4096 .f32 := m ((c : Thread nD τ).loc main_arg0)
abbrev arg1 (c : Dev nD) : Vec Ideal S4096x4096 .i32 := m ((c : Thread nD τ).loc main_arg1)
abbrev arg2 (c : Dev nD) : Vec Ideal S4096x1 .f32 := m ((c : Thread nD τ).loc main_arg2)
abbrev arg3 (c : Dev nD) : Vec Ideal S4096 .f32 := m ((c : Thread nD τ).loc main_arg3)

/-- The flattened layer reshaped back is the layer of the four arguments. -/
theorem result_eq_layer (c : Dev nD) :
    shapeCast S4x2048x4096 (flat m c) shapeCasts_S8192x4096_S4x2048x4096
      = layer (m ((c : Thread nD τ).loc main_arg0)) (m ((c : Thread nD τ).loc main_arg1))
          (m ((c : Thread nD τ).loc main_arg2)) (m ((c : Thread nD τ).loc main_arg3)) := by
  funext i
  obtain ⟨a, r, n, rfl⟩ : ∃ (a : Fin 4) (r : Fin 2048) (n : Fin 4096), i = ix3 a r n := ⟨i 0, i 1, i 2, eq_ix3 i⟩
  have ha := a.isLt
  have hr := r.isLt
  refine (shapeCast_apply (s := S8192x4096) (t := S4x2048x4096) (out2d (xarr m c) (warr m c) (sarr m c) (barr m c))
    shapeCasts_S8192x4096_S4x2048x4096 (ix3 a r n) (ix2 (⟨a.val * 2048 + r.val, by omega⟩ : Fin 8192) n) (by
      rw [Shape.rowMajor_val_three, Shape.rowMajor_val_two]; rfl)).trans ?_
  unfold layer out2d term
  show (∑ d : Fin 4096, xarr m c (ix2 (⟨a.val * 2048 + r.val, by omega⟩ : Fin 8192) d) * (toR (warr m c (ix2 n d)) * sarr m c (ix2 n (0 : Fin 1)))) + barr m c (ix2 (0 : Fin 1) n)
    = (∑ d : Fin 4096, arg0 m c (ix3 a r d) * (toR (arg1 m c (ix2 n d)) * arg2 m c (ix2 n (0 : Fin 1)))) + arg3 m c (ix1 n)
  rw [barr_at]
  congr 1
  refine Finset.sum_congr rfl fun d _ => ?_
  rw [xarr_at m c a r d _ rfl, show warr m c = m ((c : Thread nD τ).loc main_arg1) from V_main_arg1 m c,
    show sarr m c = m ((c : Thread nD τ).loc main_arg2) from V_main_arg2 m c]

/-! ## The run, read -/

/-- Every weakly fair execution of the idealized kernel program ends with the result at the layer of the four
    arguments and the arguments unchanged. -/
theorem run : θ_run defs (onTc (τ := τ) (main (F := Ideal))) ⟨m, fun _ => 0, ρ⟩ fun r => ∀ c : Dev nD,
      r.2.mem ((c.tc : Thread nD τ).loc main_v3)
        = layer (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨((h c).2 main_v3 (Pipeline.mem_restRefs_of main_v3 (by decide) (by decide))).trans ((tail_eq m c).trans (result_eq_layer m c)),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c))),
       ((h c).2 main_arg3 (Pipeline.mem_restRefs_of main_arg3 (by decide) (by decide))).trans (W_main_arg3 m (dats m) c)⟩)
    (run_main m ρ)

end Cert.KernelIdeal.Result

end
-- ==== Proof.lean ====
/-
  A linear layer with integer weights and a per-channel scale, computed by a tiled kernel, against its
  one-line reference:   out[a, r, n] = (∑ d, x[a, r, d] · (w[n, d] · s[n, 0])) + b[n].

  The kernel flattens the activations to rows, walks a 16 × 4 × 4 grid of (row block, channel block,
  contraction block), and keeps a block accumulator across the four contraction blocks: reset at the first,
  increased by the block product at each, and written out with the bias added at the last.  Read over the
  extended reals every change of float format is the identity and the integer weights are read exactly, so
  the accumulator after the last block is the whole contraction regrouped in four blocks of 1024, which is
  the same sum because addition of extended reals is associative and commutative; no input needs to be
  finite for that.  The reference's own operations read at an index give the same expression.

  The three frames: the kernel's two are the generated frame theorems; the reference has no kernel and its
  frame is its run with the result dropped.  The idealization rewrote nothing, so its claim is trivial.
-/
import proofs.«172781_j20160576487470_1_alg».proof.Defs
import proofs.«172781_j20160576487470_1_alg».proof.Proof.Gen.Kernel
import proofs.«172781_j20160576487470_1_alg».proof.Proof.Gen.Kernel.Skeleton
import proofs.«172781_j20160576487470_1_alg».proof.Proof.Gen.Kernel.Launch
import proofs.«172781_j20160576487470_1_alg».proof.Proof.Gen.Kernel.Points
import proofs.«172781_j20160576487470_1_alg».proof.Proof.Gen.Kernel.Frame
import proofs.«172781_j20160576487470_1_alg».proof.Proof.Gen.KernelIdeal
import proofs.«172781_j20160576487470_1_alg».proof.Proof.Gen.KernelIdeal.Skeleton
import proofs.«172781_j20160576487470_1_alg».proof.Proof.Gen.KernelIdeal.Launch
import proofs.«172781_j20160576487470_1_alg».proof.Proof.Gen.KernelIdeal.Points
import proofs.«172781_j20160576487470_1_alg».proof.Proof.Gen.KernelIdeal.Frame
import proofs.«172781_j20160576487470_1_alg».proof.Proof.Gen.ReferenceIdeal
import proofs.«172781_j20160576487470_1_alg».proof.Proof.Gen.ReferenceIdeal.Run
import proofs.«172781_j20160576487470_1_alg».proof.Proof.Gen.ReferenceIdeal.Read
import proofs.«172781_j20160576487470_1_alg».proof.Proof.Gen.Pre_finite_inputs
import proofs.«172781_j20160576487470_1_alg».proof.Proof.Ref
import proofs.«172781_j20160576487470_1_alg».proof.Proof.Result
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result at the layer of the four arguments: the kernel by its accumulator
    read point by point, the reference by its operations read at an index; the arguments agree. -/
theorem algebraic : Cert.algebraic_KernelIdeal_ReferenceIdeal := by
  intro m ρ m' ρ' _ hagree
  refine ⟨fun c => Cert.QLinear.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.QLinear.RefSide.ref_eq_layer,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
